-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x2048 : Shape := ⟨2, ![8, 2048]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn {F : FTy → Type} [FloatOps F] (main_arg0 : FVec F S8x4096x3 .f32) (main_arg1 : FVec F S8x4096x3 .f32) (main_arg2 : FVec F S8x2048 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x2048 .f32 := Host.absf main_arg2
  let main_cst_2 : FVec F S_ .f32 := constant S_ .f32 0x7F800000#32
  let main_v10 : FVec F S8x2048 .f32 := broadcastInDim S8x2048 ![] bcast_S_S8x2048 main_cst_2
  let main_v11 : IVec S8x2048 1 := cmpf .olt main_v9 main_v10
  let main_c_3 : IVec S_ 1 := constantI S_ 1 1#1
  let main_v12 : IVec S_ 1 := (fun x v => Host.reduce IntOp.andi x v reducesTo_S8x2048_S_d0_1 h_S_) main_v11 main_c_3
  let main_v13 : IVec S_ 1 := andi main_v8 main_v12
  main_v13
-- ==== Kernel.lean ====
abbrev S8x4096x3 : Shape := ⟨3, ![8, 4096, 3]⟩
abbrev S8x2048 : Shape := ⟨2, ![8, 2048]⟩
abbrev S8x4096 : Shape := ⟨2, ![8, 4096]⟩
abbrev S8x128x3 : Shape := ⟨3, ![8, 128, 3]⟩
abbrev S8x128 : Shape := ⟨2, ![8, 128]⟩
abbrev S8x128x4096 : Shape := ⟨3, ![8, 128, 4096]⟩
abbrev S8x128x1 : Shape := ⟨3, ![8, 128, 1]⟩
abbrev S8x1x4096 : Shape := ⟨3, ![8, 1, 4096]⟩
abbrev S_ : Shape := ⟨0, ![]⟩

abbrev nBuf : Space → Nat
  | .hbm => 30
  | .vmem => 10
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x2048, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S8x128x3, .f32⟩
  | .local _ .vmem, ⟨1, _⟩ => ⟨S8x128x3, .f32⟩
  | .local _ .vmem, ⟨2, _⟩ => ⟨S8x4096x3, .f32⟩
  | .local _ .vmem, ⟨3, _⟩ => ⟨S8x128, .f32⟩
  | .local _ .vmem, ⟨4, _⟩ => ⟨S8x128, .f32⟩
  | .local _ .vmem, ⟨5, _⟩ => ⟨S8x128x3, .f32⟩
  | .local _ .vmem, ⟨6, _⟩ => ⟨S8x128x3, .f32⟩
  | .local _ .vmem, ⟨7, _⟩ => ⟨S8x4096x3, .f32⟩
  | .local _ .vmem, ⟨8, _⟩ => ⟨S8x128, .f32⟩
  | .local _ .vmem, ⟨9, _⟩ => ⟨S8x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_cst_6 : Ref sig .tc := ⟨.hbm, 23, rfl⟩
abbrev main_v13 : Ref sig .tc := ⟨.hbm, 24, rfl⟩
abbrev main_cst_7 : Ref sig .tc := ⟨.hbm, 25, rfl⟩
abbrev main_v14 : Ref sig .tc := ⟨.hbm, 26, rfl⟩
abbrev main_cst_8 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x4096x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x128x3_S8x128x3_0_0_0 : ∀ a, (![0, 0, 0] : Fin 3 → Nat) a + S8x128x3.size a ≤ S8x128x3.size a
  h_S8x128x3 : 0 < S8x128x3.numel
  inb_S8x4096x3_S8x4096x3_0_0_0 : ∀ a, (![0, 0, 0] : Fin 3 → Nat) a + S8x4096x3.size a ≤ S8x4096x3.size a
  h_S8x4096x3 : 0 < S8x4096x3.numel
  reduces_S8x128x3_S8x128 : S8x128x3.Reduces [2] S8x128
  reduces_S8x4096x3_S8x4096 : S8x4096x3.Reduces [2] S8x4096
  shapeCasts_S8x128_S8x128x1 : S8x128.ShapeCasts S8x128x1
  shapeCasts_S8x4096_S8x1x4096 : S8x4096.ShapeCasts S8x1x4096
  broadcasts_S8x128x1_S8x128x4096 : S8x128x1.Broadcasts S8x128x4096
  broadcasts_S8x1x4096_S8x128x4096 : S8x1x4096.Broadcasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  reducesTo_S8x4096_S_d0_1 : S8x4096.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  dot_S8x128x3_S8x4096x3_S8x128x4096_2_2_1_1_0_0_wf : DotDims.WF S8x128x3 S8x4096x3 S8x128x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x3.size a ≤ S8x4096x3.size a
  hwx0_0 : ∀ i : grid0.Coords, EltTy.bits .f32 = 32 ∨ (Rect.block (s := S8x4096x3) S8x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096x3.size a ≤ S8x4096x3.size a
  hwx0_1 : ∀ i : grid0.Coords, EltTy.bits .f32 = 32 ∨ (Rect.block (s := S8x4096x3) S8x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x4096.size a
  hwx0_2 : ∀ i : grid0.Coords, EltTy.bits .f32 = 32 ∨ (Rect.block (s := S8x4096) S8x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x3.size a ≤ S8x4096x3.size a
  hwx1_0 : ∀ i : grid1.Coords, EltTy.bits .f32 = 32 ∨ (Rect.block (s := S8x4096x3) S8x128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4096x3.size a ≤ S8x4096x3.size a
  hwx1_1 : ∀ i : grid1.Coords, EltTy.bits .f32 = 32 ∨ (Rect.block (s := S8x4096x3) S8x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x4096.size a
  hwx1_2 : ∀ i : grid1.Coords, EltTy.bits .f32 = 32 ∨ (Rect.block (s := S8x4096) S8x128.size (cc1_transform_2 i) (hinb1_2 i)).WholeWords (EltTy.packing .f32)

variable [Facts₀]

def dot_S8x128x3_S8x4096x3_S8x128x4096_2_2_1_1_0_0 : DotDims S8x128x3 S8x4096x3 S8x128x4096 where
  lhsContracting := [2]
  rhsContracting := [2]
  lhsNonContracting := [1]
  rhsNonContracting := [1]
  lhsBatch := [0]
  rhsBatch := [0]
  wf := dot_S8x128x3_S8x4096x3_S8x128x4096_2_2_1_1_0_0_wf

abbrev win0_0 : Pipeline.Window sig grid0 :=
  Pipeline.Window.ofSpec (Memref.whole main_arg0) S8x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x4096x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S8x2048 : Shape := ⟨2, ![8, 2048]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x4096x3, .f32⟩
  | .hbm, ⟨17, _⟩ => ⟨S_, .f32⟩
  | .hbm, ⟨18, _⟩ => ⟨S8x4096, .f32⟩
  | .hbm, ⟨19, _⟩ => ⟨S8x4096x3, .f32⟩
  | .hbm, ⟨20, _⟩ => ⟨S_, .f32⟩
  | .hbm, ⟨21, _⟩ => ⟨S8x4096, .f32⟩
  | .hbm, ⟨22, _⟩ => ⟨S8x4096x4096, .f32⟩
  | .hbm, ⟨23, _⟩ => ⟨S8x4096x1, .f32⟩
  | .hbm, ⟨24, _⟩ => ⟨S8x1x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x1, .f32⟩
  | .hbm, ⟨33, _⟩ => ⟨S8x1x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_cst_13 : Ref sig .tc := ⟨.hbm, 51, rfl⟩
abbrev main_v34 : Ref sig .tc := ⟨.hbm, 52, rfl⟩
abbrev main_v35 : Ref sig .tc := ⟨.hbm, 53, rfl⟩
abbrev main_cst_14 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]

class Facts₀ : Prop where
  bcast_S_S8x2048 : S_.BroadcastsInDim S8x2048 (![] : Fin 0 → Fin S8x2048.rank)
  reducesTo_S8x2048_S_d0_1 : S8x2048.ReducesTo [0, 1] S_
  h_S_ : 0 < S_.numel
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S_d0_1 : S8x4096.ReducesTo [0, 1] S_
  reducesTo_S8x4096x4096_S8x4096_d1 : S8x4096x4096.ReducesTo [1] S8x4096
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Nearest.lean ====
/-
  The mathematics both programs compute, stated once over plain functions on index tuples.

  A cloud is 8 batches of 4096 points of 3 coordinates, every coordinate an extended real. For two points `a`, `b`
  the expanded squared distance is |a|² + |b|² − 2·(a·b), the three sums running over the coordinates and `2` being
  the value the f32 word 0x40000000 denotes (never evaluated: the same word stands on both sides). The distance from
  a point to a cloud is the fold of `min`, started at the value of the f32 word 0x7F800000 (+∞), of that expression
  over the cloud's 4096 points.

  `nearRow x y` holds, for every point of `x`, its distance to the cloud `y` of the same batch. `nearCol x y` holds, for
  every point of `y`, the minimum over the points `p` of `x` of the SAME table entry d(x_p, y_q): the table is read
  down a column instead of along a row. Since + and · commute on the extended reals, d(a, b) = d(b, a) with no
  finiteness needed, hence `nearCol x y = nearRow y x`.
-/
import Idealize.ShloMosaic.PureOps.Ideal.Laws
import Idealize.ShloMosaic.Lib.ValueIdx

noncomputable section

namespace Cert.Nearest

open Idealize.ShloMosaic Idealize.ShloMosaic.ValueIdx

/-- Eight batches of 4096 points with three coordinates each. -/
abbrev Cloud : Type := (⟨3, ![8, 4096, 3]⟩ : Shape).Idx → EReal
/-- One extended real per batch and point. -/
abbrev Dists : Type := (⟨2, ![8, 4096]⟩ : Shape).Idx → EReal

/-- The expanded squared distance |a|² + |b|² − 2·(a·b) of two points. -/
def sqDist (a b : Fin 3 → EReal) : EReal :=
  (∑ c : Fin 3, a c * a c + ∑ c : Fin 3, b c * b c) - Ideal.ofBits .f32 0x40000000#32 * ∑ c : Fin 3, a c * b c

/-- The least expanded squared distance from the point `a` to the 4096 points `b`, folded from +∞'s word. -/
def nearest (a : Fin 3 → EReal) (b : Fin 4096 → Fin 3 → EReal) : EReal :=
  (Finset.univ : Finset (Fin 4096)).fold (FloatOps.minimumf (F := Ideal) (φ := .f32)) (Ideal.ofBits .f32 0x7F800000#32)
    fun q => sqDist a (b q)

/-- Point `p` of batch `n` of a cloud, as its three coordinates. -/
def pt (x : Cloud) (n : Fin 8) (p : Fin 4096) : Fin 3 → EReal := fun c => x (ix3 n p c)

/-- For every point of `x`: its least distance to the points of `y` in the same batch. -/
def nearRow (x y : Cloud) : Dists := fun i => nearest (pt x (i 0) (i 1)) fun q => pt y (i 0) q

/-- For every point `q` of `y`: the least, over the points `p` of `x` in the same batch, of d(x_p, y_q). -/
def nearCol (x y : Cloud) : Dists := fun i =>
  (Finset.univ : Finset (Fin 4096)).fold (FloatOps.minimumf (F := Ideal) (φ := .f32)) (Ideal.ofBits .f32 0x7F800000#32)
    fun p => sqDist (pt x (i 0) p) (pt y (i 0) (i 1))

/-- The expanded squared distance is symmetric: addition and multiplication of extended reals commute. -/
theorem sqDist_comm (a b : Fin 3 → EReal) : sqDist a b = sqDist b a := by
  unfold sqDist
  rw [add_comm (∑ c : Fin 3, a c * a c)]
  exact congrArg (fun s => (∑ c : Fin 3, b c * b c + ∑ c : Fin 3, a c * a c) - Ideal.ofBits .f32 0x40000000#32 * s)
    (Finset.sum_congr rfl fun c _ => mul_comm _ _)

/-- Reading the distance table down a column is reading the transposed table along a row. -/
theorem nearCol_eq_nearRow (x y : Cloud) : nearCol x y = nearRow y x := by
  funext i
  unfold nearCol nearRow nearest
  exact Finset.fold_congr fun p _ => sqDist_comm _ _

end Cert.Nearest

end
-- ==== Proof.LibMinReduce.lean ====
/-
  A minimum taken along ONE axis of a vector, read at the ideal values: at each kept index it is the fold of
  `min` — started from the value the accumulator's bit pattern denotes — over the coordinates of the reduced
  axis, in any order (`min` on the extended reals commutes and associates). The library states this reading for
  a maximum; this is the same statement for a minimum, generic in the shapes, the axis and the float format.
-/
import Idealize.ShloMosaic.PureOps.Ideal.Laws

namespace Cert.LibMinReduce

open Idealize.ShloMosaic

variable {φ : FTy}

/-- A float `vector.multi_reduction <minimumf>` over one axis, at the ideal values: the fold of `min` from the
    accumulator's value over that axis's coordinates, the reduced index with the coordinate inserted
    (`Shape.Reduces.lift`). -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold (FloatOps.minimumf (F := Ideal) (φ := φ)) (FloatOps.ofBits φ acc)
          (src ∘ h.lift j) := by
  rw [multiReduction_minimumf_eq_fold]
  exact h.fold_filter_drop_single _ _ src j

end Cert.LibMinReduce
-- ==== Proof.LibLastAxis.lean ====
/-
  Rank-3 arrays whose LAST axis is reduced, and rank-2 arrays put back beside them, read at coordinates; generic in the
  three extents.

  • an `[a, b]` array viewed as `[a, b, 1]` (a kept trailing unit axis) reads, at `(i, j, u)`, the array at `(i, j)`;
  • an `[a, b]` array viewed as `[a, 1, b]` (a unit axis put in the middle) reads, at `(i, u, j)`, the array at `(i, j)`;
  • an `[a, b, 1]` array broadcast to `[a, b, c]` reads, at `(i, j, k)`, the operand at `(i, j, 0)`;
  • an `[a, 1, c]` array broadcast to `[a, b, c]` reads, at `(i, j, k)`, the operand at `(i, 0, k)`;
  • at the extended reals the sum of an `[a, b, c]` array along its last axis (from the zero word) reads, at `(i, j)`,
    the sum over `n` of the entries `(i, j, n)`, and the minimum along that axis the fold of `min`, from the value of
    the accumulator's word, of those entries.
-/
import Idealize.ShloMosaic.Lib.Pipeline.Value
import Idealize.ShloMosaic.Lib.ValueIdx
import Idealize.ShloMosaic.PureOps.Ideal.Laws
import proofs.«125754_j74560632259515_1_alg».proof.Proof.LibMinReduce

namespace Cert.LastAxis

open Idealize.ShloMosaic Idealize.ShloMosaic.ValueIdx

variable {α : Type}

/-- An `[a, b]` array cast to `[a, b, 1]` reads, at `(i, j, u)`, the operand at `(i, j)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`, whatever the unit coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's entry `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The reduced index `(i, j)` with the coordinate `n` put back on the last axis is `(i, j, n)`. -/
theorem lift_last {a b c : ℕ} (h : (⟨3, ![a, b, c]⟩ : Shape).Reduces [2] ⟨2, ![a, b]⟩) (i : Fin a) (j : Fin b) (n : Fin c) :
    h.lift (ix2 i j) n = ix3 i j n :=
  funext fun ax => Fin.ext (by
    match ax with
    | ⟨0, _⟩ => rfl
    | ⟨1, _⟩ => rfl
    | ⟨2, _⟩ => rfl)

/-- At the extended reals, the sum of an `[a, b, c]` array along its last axis (started from the zero word) reads, at
    `(i, j)`, the sum over `n` of the entries `(i, j, n)`. -/
theorem sumLast_apply {a b c : ℕ} (src : FVec Ideal ⟨3, ![a, b, c]⟩ .f32) (h : (⟨3, ![a, b, c]⟩ : Shape).Reduces [2] ⟨2, ![a, b]⟩)
    (hφ : FKind.Formats FTy.f32) (hacc : (0x00000000#32 : BitVec 32) = 0x00000000#32) (i : Fin a) (j : Fin b) :
    multiReduction (F := Ideal) .add [2] ⟨2, ![a, b]⟩ src 0x00000000#32 h hφ hacc (ix2 i j) = ∑ n : Fin c, src (ix3 i j n) :=
  (Ideal.multiReduction_add_single src 0x00000000#32 h hφ hacc (ix2 i j)).trans
    (Finset.sum_congr rfl fun n _ => congrArg src (lift_last h i j n))

/-- At the extended reals, the minimum of an `[a, b, c]` array along its last axis (started from +∞'s word) reads, at
    `(i, j)`, the fold of `min` from that word's value over the entries `(i, j, n)`. -/
theorem minLast_apply {a b c : ℕ} (src : FVec Ideal ⟨3, ![a, b, c]⟩ .f32) (h : (⟨3, ![a, b, c]⟩ : Shape).Reduces [2] ⟨2, ![a, b]⟩)
    (hφ : FKind.Formats FTy.f32) (hacc : (0x7F800000#32 : BitVec 32) = 0x7F800000#32) (i : Fin a) (j : Fin b) :
    multiReduction (F := Ideal) .minimumf [2] ⟨2, ![a, b]⟩ src 0x7F800000#32 h hφ hacc (ix2 i j)
      = (Finset.univ : Finset (Fin c)).fold (FloatOps.minimumf (F := Ideal) (φ := .f32)) (Ideal.ofBits .f32 0x7F800000#32)
          fun n => src (ix3 i j n) :=
  (Cert.LibMinReduce.multiReduction_minimumf_single src 0x7F800000#32 h hφ hacc (ix2 i j)).trans
    (Finset.fold_congr fun n _ => congrArg src (lift_last h i j n))

end Cert.LastAxis
-- ==== Proof.Payload.lean ====
/-
  What one grid step of the kernel stores, read at an entry. The body loads a block of 128 query points per batch
  (`q`, 8 × 128 × 3) and the whole other cloud (`o`, 8 × 4096 × 3), forms |q|² along the coordinates, |o|² likewise,
  the products q·o by one batched matrix product contracted over the three coordinates, then |q|² + |o|² − 2·(q·o) on
  the 8 × 128 × 4096 table, and stores the minimum of each row of that table. So entry (n, r) of the stored block is
  the least expanded squared distance from query point r of batch n to the 4096 points of the other cloud's batch n:
  `Nearest.nearest`. Both launches run this same body, so the second payload is the first.
-/
import proofs.«125754_j74560632259515_1_alg».proof.Proof.Gen.KernelIdeal.Skeleton
import proofs.«125754_j74560632259515_1_alg».proof.Proof.Nearest
import proofs.«125754_j74560632259515_1_alg».proof.Proof.LibLastAxis
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.Nearest

/-! ## The batched product's operand indices, axis by axis -/

theorem lhs_dot_0 (i : S8x128x4096.Idx) (q : dot_S8x128x3_S8x4096x3_S8x128x4096_2_2_1_1_0_0.contr.Idx) :
    (dot_S8x128x3_S8x4096x3_S8x128x4096_2_2_1_1_0_0.lhsIdx i q 0).val = (i 0).val := by
  unfold DotDims.lhsIdx
  rw [dif_pos (show (0 : Fin S8x128x3.rank) ∈ dot_S8x128x3_S8x4096x3_S8x128x4096_2_2_1_1_0_0.lhsBatch by decide)]
  rfl
theorem lhs_dot_1 (i : S8x128x4096.Idx) (q : dot_S8x128x3_S8x4096x3_S8x128x4096_2_2_1_1_0_0.contr.Idx) :
    (dot_S8x128x3_S8x4096x3_S8x128x4096_2_2_1_1_0_0.lhsIdx i q 1).val = (i 1).val := by
  unfold DotDims.lhsIdx
  rw [dif_neg (show ¬(1 : Fin S8x128x3.rank) ∈ dot_S8x128x3_S8x4096x3_S8x128x4096_2_2_1_1_0_0.lhsBatch by decide), dif_pos (show (1 : Fin S8x128x3.rank) ∈ dot_S8x128x3_S8x4096x3_S8x128x4096_2_2_1_1_0_0.lhsNonContracting by decide)]
  rfl
theorem lhs_dot_2 (i : S8x128x4096.Idx) (q : dot_S8x128x3_S8x4096x3_S8x128x4096_2_2_1_1_0_0.contr.Idx) :
    (dot_S8x128x3_S8x4096x3_S8x128x4096_2_2_1_1_0_0.lhsIdx i q 2).val = (q ⟨0, by decide⟩).val :=
  dot_S8x128x3_S8x4096x3_S8x128x4096_2_2_1_1_0_0.lhsIdx_val_of_single rfl i q
theorem rhs_dot_0 (i : S8x128x4096.Idx) (q : dot_S8x128x3_S8x4096x3_S8x128x4096_2_2_1_1_0_0.contr.Idx) :
    (dot_S8x128x3_S8x4096x3_S8x128x4096_2_2_1_1_0_0.rhsIdx i q 0).val = (i 0).val := by
  unfold DotDims.rhsIdx
  rw [dif_pos (show (0 : Fin S8x4096x3.rank) ∈ dot_S8x128x3_S8x4096x3_S8x128x4096_2_2_1_1_0_0.rhsBatch by decide)]
  rfl
theorem rhs_dot_1 (i : S8x128x4096.Idx) (q : dot_S8x128x3_S8x4096x3_S8x128x4096_2_2_1_1_0_0.contr.Idx) :
    (dot_S8x128x3_S8x4096x3_S8x128x4096_2_2_1_1_0_0.rhsIdx i q 1).val = (i 2).val := by
  unfold DotDims.rhsIdx
  rw [dif_neg (show ¬(1 : Fin S8x4096x3.rank) ∈ dot_S8x128x3_S8x4096x3_S8x128x4096_2_2_1_1_0_0.rhsBatch by decide), dif_pos (show (1 : Fin S8x4096x3.rank) ∈ dot_S8x128x3_S8x4096x3_S8x128x4096_2_2_1_1_0_0.rhsNonContracting by decide)]
  rfl
theorem rhs_dot_2 (i : S8x128x4096.Idx) (q : dot_S8x128x3_S8x4096x3_S8x128x4096_2_2_1_1_0_0.contr.Idx) :
    (dot_S8x128x3_S8x4096x3_S8x128x4096_2_2_1_1_0_0.rhsIdx i q 2).val = (q ⟨0, by decide⟩).val :=
  dot_S8x128x3_S8x4096x3_S8x128x4096_2_2_1_1_0_0.rhsIdx_val_of_single rfl i q

/-- The batched product into the zero accumulator, at entry (n, r, p): the sum over the three coordinates of query
    point r times other point p, both of batch n. -/
theorem cross_apply (x0 : FVec Ideal S8x128x3 .f32) (x1 : FVec Ideal S8x4096x3 .f32) (n : Fin 8) (r : Fin 128) (p : Fin 4096) :
    matmul (F := Ideal) dot_S8x128x3_S8x4096x3_S8x128x4096_2_2_1_1_0_0 none x0 x1 (constant (F := Ideal) S8x128x4096 .f32 0x00000000#32) (ix3 n r p)
      = ∑ c : Fin 3, x0 (ix3 n r c) * x1 (ix3 n p c) := by
  simp only [matmul]
  rw [Ideal.matmul_constant_zero_apply, ← Equiv.sum_comp (ValueIdx.contrEquiv1 dot_S8x128x3_S8x4096x3_S8x128x4096_2_2_1_1_0_0 3 rfl rfl).symm]
  refine Finset.sum_congr rfl fun k _ => ?_
  have hk := ValueIdx.contrEquiv1_symm_val dot_S8x128x3_S8x4096x3_S8x128x4096_2_2_1_1_0_0 3 rfl rfl k
  have el : dot_S8x128x3_S8x4096x3_S8x128x4096_2_2_1_1_0_0.lhsIdx (ix3 n r p) ((ValueIdx.contrEquiv1 dot_S8x128x3_S8x4096x3_S8x128x4096_2_2_1_1_0_0 3 rfl rfl).symm k) = ix3 n r k := funext fun a => Fin.ext (by
    match a with
    | ⟨0, _⟩ => exact lhs_dot_0 _ _
    | ⟨1, _⟩ => exact lhs_dot_1 _ _
    | ⟨2, _⟩ => exact (lhs_dot_2 _ _).trans hk)
  have er : dot_S8x128x3_S8x4096x3_S8x128x4096_2_2_1_1_0_0.rhsIdx (ix3 n r p) ((ValueIdx.contrEquiv1 dot_S8x128x3_S8x4096x3_S8x128x4096_2_2_1_1_0_0 3 rfl rfl).symm k) = ix3 n p k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-- One entry of the 8 × 128 × 4096 table the body forms: the expanded squared distance of query point r and other
    point p of batch n. -/
theorem table_apply (x0 : FVec Ideal S8x128x3 .f32) (x1 : FVec Ideal S8x4096x3 .f32) (n : Fin 8) (r : Fin 128) (p : Fin 4096) :
    subf (F := Ideal)
        (addf
          (broadcastTo S8x128x4096
            (shapeCast S8x128x1 (multiReduction (F := Ideal) .add [2] S8x128 (mulf x0 x0) 0x00000000#32 reduces_S8x128x3_S8x128 (.inl rfl) rfl) shapeCasts_S8x128_S8x128x1)
            broadcasts_S8x128x1_S8x128x4096)
          (broadcastTo S8x128x4096
            (shapeCast S8x1x4096 (multiReduction (F := Ideal) .add [2] S8x4096 (mulf x1 x1) 0x00000000#32 reduces_S8x4096x3_S8x4096 (.inl rfl) rfl) shapeCasts_S8x4096_S8x1x4096)
            broadcasts_S8x1x4096_S8x128x4096))
        (mulf (broadcast S8x128x4096 (Scalar.ofBits (F := Ideal) .f32 0x40000000#32))
          (matmul (F := Ideal) dot_S8x128x3_S8x4096x3_S8x128x4096_2_2_1_1_0_0 none x0 x1 (constant (F := Ideal) S8x128x4096 .f32 0x00000000#32)))
        (ix3 n r p)
      = sqDist (fun c => x0 (ix3 n r c)) (fun c => x1 (ix3 n p c)) := by
  rw [subf_apply, addf_apply, mulf_apply, broadcast_apply, cross_apply,
    Cert.LastAxis.broadcastTo_ab1_abc_apply, Cert.LastAxis.shapeCast_ab_ab1_apply, Cert.LastAxis.sumLast_apply,
    Cert.LastAxis.broadcastTo_a1c_abc_apply, Cert.LastAxis.shapeCast_ab_a1b_apply, Cert.LastAxis.sumLast_apply]
  rfl

/-- Entry (n, r) of what a grid step stores: the least expanded squared distance from query point r of batch n to the
    other cloud's batch n. -/
theorem pay_apply (x0 : FVec Ideal S8x128x3 .f32) (x1 : FVec Ideal S8x4096x3 .f32) (n : Fin 8) (r : Fin 128) :
    k0_pay1 (F := Ideal) x0 x1 (ix2 n r) = nearest (fun c => x0 (ix3 n r c)) (fun p c => x1 (ix3 n p c)) := by
  unfold k0_pay1
  refine (Cert.LastAxis.minLast_apply _ reduces_S8x128x4096_S8x128 (.inl rfl) rfl n r).trans ?_
  unfold nearest
  exact Finset.fold_congr fun p _ => table_apply x0 x1 n r p

/-- The second launch runs the same body. -/
theorem pay1_eq (x0 : FVec Ideal S8x128x3 .f32) (x1 : FVec Ideal S8x4096x3 .f32) :
    k1_pay1 (F := Ideal) x0 x1 = k0_pay1 (F := Ideal) x0 x1 := rfl

end Cert.KernelIdeal.Payload

end
-- ==== Proof.Blocks.lean ====
/-
  From the blocks a launch writes back to the whole array it leaves, for either launch and for ANY contents `V` of the
  buffers at the launch's entry. The grid has 32 points; point t stages rows 128·t … 128·t + 127 of the query cloud
  (every batch, all three coordinates), the whole other cloud, and writes back rows 128·t … 128·t + 127 of the 8 × 4096
  result. What it writes at (n, r) is the least expanded squared distance from query point 128·t + r of batch n to the
  other cloud's batch n, so block t of the result is block t of `nearRow query other`; the 32 blocks tile the result
  (row q lies in the block of point q / 128), hence the array ends at `nearRow query other`. The first launch has the
  first argument as query cloud and the second as the other; the second launch has them exchanged.
-/
import proofs.«125754_j74560632259515_1_alg».proof.Proof.Gen.KernelIdeal.Frame
import proofs.«125754_j74560632259515_1_alg».proof.Proof.Payload
import Idealize.ShloMosaic.Lib.Pipeline.Value

set_option maxRecDepth 16384

noncomputable section

namespace Cert.KernelIdeal.Blocks

open Cert.KernelIdeal Cert.KernelIdeal.Gen Cert.KernelIdeal.Payload Cert.Nearest
open Idealize.ShloMosaic Idealize.ShloMosaic.TcCoe Idealize.ShloMosaic.ValueIdx Idealize.SL.Sem
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-- One entry of a stored block against one entry of the whole result: if the staged query block's point (n, r) is
    the query cloud's point (n, p') and the staged other cloud is the other cloud, the stored value at (n, r) is the
    result's value at (n, p'). Stated over plain vectors and indices. -/
theorem entry_eq (query other : Cloud) (x0 : FVec Ideal S8x128x3 .f32) (x1 : FVec Ideal S8x4096x3 .f32)
    (j : S8x128.Idx) (i : S8x4096.Idx) (n : Fin 8) (r : Fin 128) (p' : Fin 4096) (hj : j = ix2 n r) (hi : i = ix2 n p')
    (h0 : ∀ c : Fin 3, x0 (ix3 n r c) = query (ix3 n p' c))
    (h1 : ∀ (p : Fin 4096) (c : Fin 3), x1 (ix3 n p c) = other (ix3 n p c)) :
    k0_pay1 (F := Ideal) x0 x1 j = nearRow query other i := by
  subst hj hi
  rw [pay_apply]
  show nearest (fun c => x0 (ix3 n r c)) (fun p c => x1 (ix3 n p c)) = nearest (fun c => query (ix3 n p' c)) (fun q c => other (ix3 n q c))
  rw [funext h0, funext fun p => funext (h1 p)]

section Regions

variable (V : (c : Dev nD) → (b : Ref sig .tc) → Buf (Elt Ideal) ((c : Thread nD τ).loc b))

/-! ## The first launch: query cloud = argument 0, other cloud = argument 1 -/

/-- The printed index maps over the grid: the query window walks the rows, the other cloud's window stays, the result's
    window walks the rows with the query's. -/
theorem idx_facts0 : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- What point t writes back is block t of the nearest-point array of the two clouds as the launch finds them. -/
theorem flushed0 (c : Dev nD) (t : Fin cfg0.N) :
    (dat0 V c).flushed 2 t = ((cfg0.win 2).blk t).view.read (Elt Ideal) (nearRow (V c main_arg0) (V c main_arg1)) := by
  show (cfg0.win 2).cut (grid0.coords t) ((dat0 V c).after 2 t) = _
  rw [after0_2]
  unfold out0_2
  rw [View.canon_unit_zero hz2]
  simp only [View.ld_unit_zero (S := S8x128x3) hz3, View.ld_unit_zero (S := S8x4096x3) hz3]
  obtain ⟨a00, a01, a02, a10, a11, a12, a20, a21⟩ := idx_facts0 t
  have ht : t.val < 32 := Nat.lt_of_lt_of_eq t.isLt N_0
  funext j
  have hj0 : (j 0).val < 8 := (j 0).isLt
  have hj1 : (j 1).val < 128 := (j 1).isLt
  refine entry_eq (V c main_arg0) (V c main_arg1) (iblk0 V c 0 t) (iblk0 V c 1 t) j (((cfg0.win 2).blk t).view.emb j)
    ⟨(j 0).val, hj0⟩ ⟨(j 1).val, hj1⟩ ⟨t.val * 128 + (j 1).val, by omega⟩ ?_ ?_ ?_ ?_
  · exact funext fun a => Fin.ext (by match a with | ⟨0, _⟩ => rfl | ⟨1, _⟩ => rfl)
  · refine funext fun a => Fin.ext ?_
    match a with
    | ⟨0, _⟩ => show win0_2.index t (0 : Fin 2) * 8 + 1 * (j 0).val = (j 0).val; omega
    | ⟨1, _⟩ => show win0_2.index t (1 : Fin 2) * 128 + 1 * (j 1).val = t.val * 128 + (j 1).val; omega
  · intro k
    show V c main_arg0 (((cfg0.win 0).blk t).view.emb (ix3 ⟨(j 0).val, hj0⟩ ⟨(j 1).val, hj1⟩ k)) = V c main_arg0 (ix3 ⟨(j 0).val, hj0⟩ ⟨t.val * 128 + (j 1).val, by omega⟩ k)
    refine congrArg (V c main_arg0) (funext fun a => Fin.ext ?_)
    match a with
    | ⟨0, _⟩ => show win0_0.index t (0 : Fin 3) * 8 + 1 * (j 0).val = (j 0).val; omega
    | ⟨1, _⟩ => show win0_0.index t (1 : Fin 3) * 128 + 1 * (j 1).val = t.val * 128 + (j 1).val; omega
    | ⟨2, _⟩ => show win0_0.index t (2 : Fin 3) * 3 + 1 * k.val = k.val; omega
  · intro p k
    show V c main_arg1 (((cfg0.win 1).blk t).view.emb (ix3 ⟨(j 0).val, hj0⟩ p k)) = V c main_arg1 (ix3 ⟨(j 0).val, hj0⟩ p k)
    refine congrArg (V c main_arg1) (funext fun a => Fin.ext ?_)
    match a with
    | ⟨0, _⟩ => show win0_1.index t (0 : Fin 3) * 8 + 1 * (j 0).val = (j 0).val; omega
    | ⟨1, _⟩ => show win0_1.index t (1 : Fin 3) * 4096 + 1 * p.val = p.val; omega
    | ⟨2, _⟩ => show win0_1.index t (2 : Fin 3) * 3 + 1 * k.val = k.val; omega

/-- An entry of the result lies in point t's block iff each coordinate lies in the block's range on its axis. -/
theorem mem_blk0 (t : Fin cfg0.N) (i : S8x4096.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The 32 blocks tile the result: row q is in the block of point q / 128. -/
theorem cover0 (i : S8x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hN : cfg0.N = 32 := N_0
  refine ⟨⟨(i 1).val / 128, by rw [hN]; omega⟩, flush0_2 _, ?_⟩
  rw [mem_blk0]
  obtain ⟨-, -, -, -, -, -, a20, a21⟩ := idx_facts0 ⟨(i 1).val / 128, by rw [hN]; omega⟩
  intro a
  match a with
  | ⟨0, _⟩ => show win0_2.index _ (0 : Fin 2) * 8 ≤ (i 0).val ∧ (i 0).val < win0_2.index _ (0 : Fin 2) * 8 + 8; rw [a20]; omega
  | ⟨1, _⟩ => show win0_2.index _ (1 : Fin 2) * 128 ≤ (i 1).val ∧ (i 1).val < win0_2.index _ (1 : Fin 2) * 128 + 128; rw [a21]; show (i 1).val / 128 * 128 ≤ (i 1).val ∧ (i 1).val < (i 1).val / 128 * 128 + 128; omega

/-- The first launch leaves in its result array the nearest-point array of argument 0 against argument 1. -/
theorem final0 (c : Dev nD) : (dat0 V c).arrAt 2 cfg0.N = nearRow (V c main_arg0) (V c main_arg1) :=
  (dat0 V c).arrAt_eq_of_cover 2 (nearRow (V c main_arg0) (V c main_arg1)) (fun t _ => flushed0 V c t) cover0

/-! ## The second launch: query cloud = argument 1, other cloud = argument 0 -/

theorem idx_facts1 : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val :=
  (by decide +kernel : ∀ t : Fin grid1.N, _)

/-- What point t writes back is block t of the nearest-point array of argument 1 against argument 0. -/
theorem flushed1 (c : Dev nD) (t : Fin cfg1.N) :
    (dat1 V c).flushed 2 t = ((cfg1.win 2).blk t).view.read (Elt Ideal) (nearRow (V c main_arg1) (V c main_arg0)) := by
  show (cfg1.win 2).cut (grid1.coords t) ((dat1 V c).after 2 t) = _
  rw [after1_2]
  unfold out1_2
  rw [View.canon_unit_zero hz2]
  simp only [View.ld_unit_zero (S := S8x128x3) hz3, View.ld_unit_zero (S := S8x4096x3) hz3]
  rw [pay1_eq]
  obtain ⟨a00, a01, a02, a10, a11, a12, a20, a21⟩ := idx_facts1 t
  have ht : t.val < 32 := Nat.lt_of_lt_of_eq t.isLt N_1
  funext j
  have hj0 : (j 0).val < 8 := (j 0).isLt
  have hj1 : (j 1).val < 128 := (j 1).isLt
  refine entry_eq (V c main_arg1) (V c main_arg0) (iblk1 V c 0 t) (iblk1 V c 1 t) j (((cfg1.win 2).blk t).view.emb j)
    ⟨(j 0).val, hj0⟩ ⟨(j 1).val, hj1⟩ ⟨t.val * 128 + (j 1).val, by omega⟩ ?_ ?_ ?_ ?_
  · exact funext fun a => Fin.ext (by match a with | ⟨0, _⟩ => rfl | ⟨1, _⟩ => rfl)
  · refine funext fun a => Fin.ext ?_
    match a with
    | ⟨0, _⟩ => show win1_2.index t (0 : Fin 2) * 8 + 1 * (j 0).val = (j 0).val; omega
    | ⟨1, _⟩ => show win1_2.index t (1 : Fin 2) * 128 + 1 * (j 1).val = t.val * 128 + (j 1).val; omega
  · intro k
    show V c main_arg1 (((cfg1.win 0).blk t).view.emb (ix3 ⟨(j 0).val, hj0⟩ ⟨(j 1).val, hj1⟩ k)) = V c main_arg1 (ix3 ⟨(j 0).val, hj0⟩ ⟨t.val * 128 + (j 1).val, by omega⟩ k)
    refine congrArg (V c main_arg1) (funext fun a => Fin.ext ?_)
    match a with
    | ⟨0, _⟩ => show win1_0.index t (0 : Fin 3) * 8 + 1 * (j 0).val = (j 0).val; omega
    | ⟨1, _⟩ => show win1_0.index t (1 : Fin 3) * 128 + 1 * (j 1).val = t.val * 128 + (j 1).val; omega
    | ⟨2, _⟩ => show win1_0.index t (2 : Fin 3) * 3 + 1 * k.val = k.val; omega
  · intro p k
    show V c main_arg0 (((cfg1.win 1).blk t).view.emb (ix3 ⟨(j 0).val, hj0⟩ p k)) = V c main_arg0 (ix3 ⟨(j 0).val, hj0⟩ p k)
    refine congrArg (V c main_arg0) (funext fun a => Fin.ext ?_)
    match a with
    | ⟨0, _⟩ => show win1_1.index t (0 : Fin 3) * 8 + 1 * (j 0).val = (j 0).val; omega
    | ⟨1, _⟩ => show win1_1.index t (1 : Fin 3) * 4096 + 1 * p.val = p.val; omega
    | ⟨2, _⟩ => show win1_1.index t (2 : Fin 3) * 3 + 1 * k.val = k.val; omega

theorem mem_blk1 (t : Fin cfg1.N) (i : S8x4096.Idx) :
    i ∈ ((cfg1.win 2).blk t).view.set ↔ ∀ a : Fin 2, win1_2.index t a * S8x128.size a ≤ (i a).val ∧ (i a).val < win1_2.index t a * S8x128.size a + S8x128.size a := by
  show i ∈ ((View.whole main_v1).slice (win1_2.rect t)).set ↔ _
  rw [View.set_slice_whole, Rect.mem_set_unit]
  exact Iff.rfl

theorem cover1 (i : S8x4096.Idx) : ∃ t : Fin cfg1.N, (cfg1.win 2).flush t = true ∧ i ∈ ((cfg1.win 2).blk t).view.set := by
  have hi0 : (i 0).val < 8 := (i 0).isLt
  have hi1 : (i 1).val < 4096 := (i 1).isLt
  have hN : cfg1.N = 32 := N_1
  refine ⟨⟨(i 1).val / 128, by rw [hN]; omega⟩, flush1_2 _, ?_⟩
  rw [mem_blk1]
  obtain ⟨-, -, -, -, -, -, a20, a21⟩ := idx_facts1 ⟨(i 1).val / 128, by rw [hN]; omega⟩
  intro a
  match a with
  | ⟨0, _⟩ => show win1_2.index _ (0 : Fin 2) * 8 ≤ (i 0).val ∧ (i 0).val < win1_2.index _ (0 : Fin 2) * 8 + 8; rw [a20]; omega
  | ⟨1, _⟩ => show win1_2.index _ (1 : Fin 2) * 128 ≤ (i 1).val ∧ (i 1).val < win1_2.index _ (1 : Fin 2) * 128 + 128; rw [a21]; show (i 1).val / 128 * 128 ≤ (i 1).val ∧ (i 1).val < (i 1).val / 128 * 128 + 128; omega

/-- The second launch leaves in its result array the nearest-point array of argument 1 against argument 0. -/
theorem final1 (c : Dev nD) : (dat1 V c).arrAt 2 cfg1.N = nearRow (V c main_arg1) (V c main_arg0) :=
  (dat1 V c).arrAt_eq_of_cover 2 (nearRow (V c main_arg1) (V c main_arg0)) (fun t _ => flushed1 V c t) cover1

end Regions

end Cert.KernelIdeal.Blocks

end
-- ==== Proof.KernelValue.lean ====
/-
  What the idealized kernel program's five results hold, as terms of the argument arrays. After the two launches the
  program runs one stretch of host operations: the mean of each launch's 8 × 4096 result (sum from the zero word, divided
  by 32768), their sum; the sum of log(lik)/log 2 divided by −8, that divided by 4096 (twice); and 1·(sum of means) added
  to one of those quotients. Each result buffer is read back through that stretch to the contents the launches left;
  the first launch's result is `nearRow x y`, the second's `nearRow y x` (x, y the first two arguments as launched: no
  launch and no host operation writes an argument), and the third argument reaches the stretch as launched.
-/
import proofs.«125754_j74560632259515_1_alg».proof.Proof.Gen.KernelIdeal.Frame
import proofs.«125754_j74560632259515_1_alg».proof.Proof.Blocks
import Idealize.ShloMosaic.Lib.StableHlo.Run

set_option maxRecDepth 16384

noncomputable section

namespace Cert.KernelIdeal.KernelValue

open Cert.KernelIdeal Cert.KernelIdeal.Gen Cert.Nearest
open Idealize.ShloMosaic Idealize.ShloMosaic.TcCoe Idealize.SL.Sem Idealize.ShloMosaic.StableHlo
open Idealize.ShloMosaic.Pipeline (Dat Cfg Window)

/-! ## The host stretch after the launches, read back (any float instance) -/

section Stretch

variable {F : FTy → Type} [FloatOps F]
variable (m : (ℓ : Loc nD τ sig) → Buf (Elt F) ℓ) (ρ : Dev nD → PrngReg)

/-- The mean of an 8 × 4096 array as the program takes it: its sum from the zero word over 32768's word. -/
def mean (a : (⟨S8x4096, .f32⟩ : BufTy).Contents (Elt F)) : (⟨S_, .f32⟩ : BufTy).Contents (Elt F) :=
  Host.divf (Host.reduceAdd a (constant S_ .f32 0x00000000#32) reducesTo_S8x4096_S_d0_1 h_S_) (constant S_ .f32 0x47000000#32)

/-- The bit count of the likelihoods as the program takes it: the sum of log / log 2, over −8's word. -/
def bits (l : (⟨S8x2048, .f32⟩ : BufTy).Contents (Elt F)) : (⟨S_, .f32⟩ : BufTy).Contents (Elt F) :=
  Host.divf (Host.reduceAdd (Host.divf (Host.log l) (broadcastInDim S8x2048 ![] bcast_S_S8x2048 (Host.log (constant S_ .f32 0x40000000#32))))
    (constant S_ .f32 0x00000000#32) reducesTo_S8x2048_S_d0_1 h_S_) (constant S_ .f32 0xC1000000#32)

theorem W3_v6 (c : Dev nD) : W3 m ρ c (Proc.devRef .tc main_v6)
    = addf (mean (W2 m ρ c (Proc.devRef .tc main_v0))) (mean (W2 m ρ c (Proc.devRef .tc main_v1))) := by
  show StableHlo.after hostOps2 (W2 m ρ c) (Proc.devRef .tc main_v6) = _
  unfold mean
  after_results_simp

theorem W3_v12 (c : Dev nD) : W3 m ρ c (Proc.devRef .tc main_v12) = bits (W2 m ρ c (Proc.devRef .tc main_arg2)) := by
  show StableHlo.after hostOps2 (W2 m ρ c) (Proc.devRef .tc main_v12) = _
  unfold bits
  after_results_simp

theorem W3_v13 (c : Dev nD) : W3 m ρ c (Proc.devRef .tc main_v13)
    = Host.divf (bits (W2 m ρ c (Proc.devRef .tc main_arg2))) (constant S_ .f32 0x45800000#32) := by
  show StableHlo.after hostOps2 (W2 m ρ c) (Proc.devRef .tc main_v13) = _
  unfold bits
  after_results_simp

theorem W3_v14 (c : Dev nD) : W3 m ρ c (Proc.devRef .tc main_v14)
    = Host.divf (bits (W2 m ρ c (Proc.devRef .tc main_arg2))) (constant S_ .f32 0x45800000#32) := by
  show StableHlo.after hostOps2 (W2 m ρ c) (Proc.devRef .tc main_v14) = _
  unfold bits
  after_results_simp

theorem W3_v16 (c : Dev nD) : W3 m ρ c (Proc.devRef .tc main_v16)
    = addf (Host.divf (bits (W2 m ρ c (Proc.devRef .tc main_arg2))) (constant S_ .f32 0x45800000#32))
        (mulf (constant S_ .f32 0x3F800000#32)
          (addf (mean (W2 m ρ c (Proc.devRef .tc main_v0))) (mean (W2 m ρ c (Proc.devRef .tc main_v1))))) := by
  show StableHlo.after hostOps2 (W2 m ρ c) (Proc.devRef .tc main_v16) = _
  unfold bits mean
  after_results_simp

/-- The third argument reaches the host stretch as launched: neither launch has it among its arrays. -/
theorem W2_arg2 (c : Dev nD) : W2 m ρ c (Proc.devRef .tc main_arg2) = m ((c : Thread nD τ).loc main_arg2) :=
  (W2_of_ne m ρ c main_arg2 (by decide)).trans (W1_of_ne m ρ c main_arg2 (by decide))

/-- The first two arguments reach the second launch as launched: the first launch only reads them. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
theorem W1_arg1 (c : Dev nD) : W1 m ρ c (Proc.devRef .tc main_arg1) = m ((c : Thread nD τ).loc main_arg1) :=
  (W1_arr m ρ c 1).trans (((dat0 (V0 m ρ) c).arrAt_in 1 rfl _).trans (A_eq0 (V0 m ρ) c 1))

end Stretch

/-! ## The two launches' results at the ideal values -/

variable (m : (ℓ : Loc nD τ sig) → Buf (Elt Ideal) ℓ) (ρ : Dev nD → PrngReg)

/-- The first launch's result when the host stretch starts: for every point of the first argument, its least expanded
    squared distance to the second argument's points. The second launch does not write it. -/
theorem W2_v0 (c : Dev nD) : W2 m ρ c (Proc.devRef .tc main_v0)
    = nearRow (m ((c : Thread nD τ).loc main_arg0)) (m ((c : Thread nD τ).loc main_arg1)) :=
  (W2_of_ne m ρ c main_v0 (by decide)).trans ((W1_arr m ρ c 2).trans (Blocks.final0 (V0 m ρ) c))

/-- The second launch's result: for every point of the second argument, its least expanded squared distance to the
    first argument's points. -/
theorem W2_v1 (c : Dev nD) : W2 m ρ c (Proc.devRef .tc main_v1)
    = nearRow (m ((c : Thread nD τ).loc main_arg1)) (m ((c : Thread nD τ).loc main_arg0)) := by
  refine (W2_arr m ρ c 2).trans ((Blocks.final1 (V1 m ρ) c).trans ?_)
  show nearRow (W1 m ρ c (Proc.devRef .tc main_arg1)) (W1 m ρ c (Proc.devRef .tc main_arg0)) = _
  rw [W1_arg0, W1_arg1]

end Cert.KernelIdeal.KernelValue

end
-- ==== Proof.RefNearest.lean ====
/-
  The reference's two nearest-point arrays, read at an entry. The reference forms the whole 8 × 4096 × 4096 table
  |x_p|² + |y_q|² − 2·(x_p·y_q) (row sums of squares started from the zero word, one batched product contracted
  over the three coordinates) and takes its minimum along the last axis — for every point of x the nearest of y —
  and along the middle axis — for every point of y the nearest of x, through the same table. Read at an entry these
  are `Nearest.nearRow x y` and `Nearest.nearCol x y`.
-/
import proofs.«125754_j74560632259515_1_alg».proof.Proof.Gen.ReferenceIdeal.Read
import proofs.«125754_j74560632259515_1_alg».proof.Proof.Nearest
import proofs.«125754_j74560632259515_1_alg».proof.Proof.LibLastAxis
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Nearest

/-- The reduced index `(i, k)` with the coordinate `j` put back on the MIDDLE axis is `(i, j, k)`. -/
theorem lift_mid {a b c : ℕ} (h : (⟨3, ![a, b, c]⟩ : Shape).Reduces [1] ⟨2, ![a, c]⟩) (i : Fin a) (k : Fin c) (j : Fin b) :
    h.lift (ix2 i k) j = ix3 i j k :=
  funext fun ax => Fin.ext (by
    match ax with
    | ⟨0, _⟩ => rfl
    | ⟨1, _⟩ => rfl
    | ⟨2, _⟩ => rfl)

/-- Entry (n, p, q) of the reference's table: the expanded squared distance of point p of x and point q of y, batch n. -/
theorem table_apply (x0 x1 : (⟨S8x4096x3, .f32⟩ : BufTy).Contents (Elt Ideal)) (n : Fin 8) (p q : Fin 4096) :
    val_main_v28 (F := Ideal) x0 x1 (ix3 n p q) = sqDist (pt x0 n p) (pt x1 n q) := by
  have e0 : ∀ k : Fin 3, idx_main_v9 (idx_main_v21 (idx_main_v23 (ix3 n p q))) k = ix3 n p k := fun k =>
    funext fun a => Fin.ext (by match a with | ⟨0, _⟩ => rfl | ⟨1, _⟩ => rfl | ⟨2, _⟩ => rfl)
  have e1 : ∀ k : Fin 3, idx_main_v11 (idx_main_v22 (idx_main_v24 (ix3 n p q))) k = ix3 n q k := fun k =>
    funext fun a => Fin.ext (by match a with | ⟨0, _⟩ => rfl | ⟨1, _⟩ => rfl | ⟨2, _⟩ => rfl)
  have el : ∀ k : Fin 3, lidx_main_v12 (ix3 n p q) k = ix3 n p k := fun k =>
    funext fun a => Fin.ext (by match a with | ⟨0, _⟩ => rfl | ⟨1, _⟩ => rfl | ⟨2, _⟩ => rfl)
  have er : ∀ k : Fin 3, ridx_main_v12 (ix3 n p q) k = ix3 n q k := fun k =>
    funext fun a => Fin.ext (by match a with | ⟨0, _⟩ => rfl | ⟨1, _⟩ => rfl | ⟨2, _⟩ => rfl)
  rw [val_main_v28_apply, val_main_v25_apply, val_main_v23_apply, val_main_v21_apply, val_main_v9_apply,
    val_main_v24_apply, val_main_v22_apply, val_main_v11_apply, val_main_v27_apply, val_main_v26_apply,
    val_main_cst_7_apply, val_main_v12_apply]
  simp only [val_main_v8_apply, val_main_v10_apply, val_main_cst_4_apply, val_main_cst_5_apply, e0, e1, el, er,
    Ideal.subf_def, Ideal.addf_def, Ideal.mulf_def, Ideal.ofBits_def, Ideal.ofBits_zero_f32, zero_add]
  rfl

/-- The minimum along the table's last axis: for every point of x the nearest of y. -/
theorem v29_eq (x0 x1 : (⟨S8x4096x3, .f32⟩ : BufTy).Contents (Elt Ideal)) :
    val_main_v29 (F := Ideal) x0 x1 = nearRow x0 x1 := by
  funext i
  obtain ⟨n, p, rfl⟩ : ∃ (n : Fin 8) (p : Fin 4096), i = ix2 n p := ⟨i 0, i 1, eq_ix2 i⟩
  unfold val_main_v29
  refine (Host.reduce_eq_fold_single FloatOps.minimumf _ _ reducesTo_S8x4096x4096_S8x4096_d2 (by decide) h_S_ (ix2 n p)).trans ?_
  unfold nearRow nearest
  refine Finset.fold_congr fun q _ => ?_
  exact (congrArg (val_main_v28 (F := Ideal) x0 x1) (Cert.LastAxis.lift_last (a := 8) (b := 4096) (c := 4096) _ n p q)).trans
    (table_apply x0 x1 n p q)

/-- The minimum along the table's middle axis: for every point of y the nearest of x, read off the same table. -/
theorem v32_eq (x0 x1 : (⟨S8x4096x3, .f32⟩ : BufTy).Contents (Elt Ideal)) :
    val_main_v32 (F := Ideal) x0 x1 = nearCol x0 x1 := by
  funext i
  obtain ⟨n, q, rfl⟩ : ∃ (n : Fin 8) (q : Fin 4096), i = ix2 n q := ⟨i 0, i 1, eq_ix2 i⟩
  unfold val_main_v32
  refine (Host.reduce_eq_fold_single FloatOps.minimumf _ _ reducesTo_S8x4096x4096_S8x4096_d1 (by decide) h_S_ (ix2 n q)).trans ?_
  unfold nearCol
  refine Finset.fold_congr fun p _ => ?_
  exact (congrArg (val_main_v28 (F := Ideal) x0 x1) (lift_mid (a := 8) (b := 4096) (c := 4096) _ n q p)).trans
    (table_apply x0 x1 n p q)

end Cert.ReferenceIdeal.RefValue

end
-- ==== Proof.Bridge.lean ====
/-
  The two programs' results are the same terms of the argument arrays. Both end with the same host arithmetic — the
  mean of a nearest-point array (sum from the zero word over 32768's word), the sum of two such means, the likelihoods'
  bit count (sum of log / log 2 over −8's word), its quotients by 4096's word, and the final 1·(sum of means) added to
  one quotient — so everything rests on the two nearest-point arrays. The reference takes both from ONE distance
  table, d(x_p, y_q) minimized over q and over p; the kernel program's second launch recomputes the table with the
  clouds exchanged, d(y_q, x_p) minimized over p. The expanded squared distance is symmetric (+ and · commute on the
  extended reals; nothing has to be finite), so the column minimum of the one table is the row minimum of the other.
-/
import proofs.«125754_j74560632259515_1_alg».proof.Proof.KernelValue
import proofs.«125754_j74560632259515_1_alg».proof.Proof.RefNearest

set_option maxRecDepth 16384

noncomputable section

namespace Cert.Bridge

open Idealize.ShloMosaic Idealize.ShloMosaic.TcCoe Idealize.SL.Sem Cert.Nearest
open Cert.KernelIdeal.KernelValue (mean bits)

/-! ## The reference's stages over the two nearest-point arrays -/

/-- The reference's reconstruction term: the mean of x's nearest-point array plus the mean of y's, the latter read
    down the columns of the same table, which is the row reading with the clouds exchanged. -/
theorem ref_rec (x0 x1 : Cloud) :
    Cert.ReferenceIdeal.Read.val_main_v35 (F := Ideal) x0 x1
      = addf (F := Ideal) (s := Cert.KernelIdeal.S_) (φ := .f32) (mean (F := Ideal) (nearRow x0 x1)) (mean (F := Ideal) (nearRow x1 x0)) := by
  unfold Cert.ReferenceIdeal.Read.val_main_v35 Cert.ReferenceIdeal.Read.val_main_v31 Cert.ReferenceIdeal.Read.val_main_v34
    Cert.ReferenceIdeal.Read.val_main_v30 Cert.ReferenceIdeal.Read.val_main_v33
  rw [Cert.ReferenceIdeal.RefValue.v29_eq, Cert.ReferenceIdeal.RefValue.v32_eq, nearCol_eq_nearRow]
  rfl

/-- The reference's bit count is the kernel program's: the same host operations on the likelihoods. -/
theorem ref_bits (x2 : (⟨2, ![8, 2048]⟩ : Shape).Idx → EReal) :
    Cert.ReferenceIdeal.Read.val_main_v5 (F := Ideal) x2 = bits (F := Ideal) x2 := rfl

/-! ## Each result of the kernel program against the reference's stage -/

variable (m : (ℓ : Loc Cert.KernelIdeal.nD Cert.KernelIdeal.τ Cert.KernelIdeal.sig) → Buf (Elt Ideal) ℓ)
  (ρ : Dev Cert.KernelIdeal.nD → PrngReg)

/-- The reconstruction loss. -/
theorem rec_eq (c : Dev Cert.KernelIdeal.nD) :
    Cert.ReferenceIdeal.Read.val_main_v35 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Gen.W3 m ρ c (Proc.devRef .tc Cert.KernelIdeal.main_v6) := by
  rw [ref_rec, Cert.KernelIdeal.KernelValue.W3_v6, Cert.KernelIdeal.KernelValue.W2_v0, Cert.KernelIdeal.KernelValue.W2_v1]

/-- The bit loss. -/
theorem bit_eq (c : Dev Cert.KernelIdeal.nD) :
    Cert.ReferenceIdeal.Read.val_main_v5 (F := Ideal)
        (m ((c.tc : Thread Cert.KernelIdeal.nD Cert.KernelIdeal.τ).loc Cert.KernelIdeal.main_arg2))
      = Cert.KernelIdeal.Gen.W3 m ρ c (Proc.devRef .tc Cert.KernelIdeal.main_v12) := by
  rw [ref_bits, Cert.KernelIdeal.KernelValue.W3_v12, Cert.KernelIdeal.KernelValue.W2_arg2]

/-- The bits per point, as the fifth result. -/
theorem bpp_y_eq (c : Dev Cert.KernelIdeal.nD) :
    Cert.ReferenceIdeal.Read.val_main_v6 (F := Ideal)
        (m ((c.tc : Thread Cert.KernelIdeal.nD Cert.KernelIdeal.τ).loc Cert.KernelIdeal.main_arg2))
      = Cert.KernelIdeal.Gen.W3 m ρ c (Proc.devRef .tc Cert.KernelIdeal.main_v13) := by
  rw [Cert.KernelIdeal.KernelValue.W3_v13, Cert.KernelIdeal.KernelValue.W2_arg2]
  unfold Cert.ReferenceIdeal.Read.val_main_v6
  rw [ref_bits]
  rfl

/-- The bits per point, as the second result. -/
theorem bpp_eq (c : Dev Cert.KernelIdeal.nD) :
    Cert.ReferenceIdeal.Read.val_main_v7 (F := Ideal)
        (m ((c.tc : Thread Cert.KernelIdeal.nD Cert.KernelIdeal.τ).loc Cert.KernelIdeal.main_arg2))
      = Cert.KernelIdeal.Gen.W3 m ρ c (Proc.devRef .tc Cert.KernelIdeal.main_v14) := by
  rw [Cert.KernelIdeal.KernelValue.W3_v14, Cert.KernelIdeal.KernelValue.W2_arg2]
  unfold Cert.ReferenceIdeal.Read.val_main_v7
  rw [ref_bits]
  rfl

/-- The total loss. -/
theorem loss_eq (c : Dev Cert.KernelIdeal.nD) :
    Cert.ReferenceIdeal.Read.val_main_v37 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Gen.W3 m ρ c (Proc.devRef .tc Cert.KernelIdeal.main_v16) := by
  rw [Cert.KernelIdeal.KernelValue.W3_v16, Cert.KernelIdeal.KernelValue.W2_arg2, Cert.KernelIdeal.KernelValue.W2_v0,
    Cert.KernelIdeal.KernelValue.W2_v1]
  unfold Cert.ReferenceIdeal.Read.val_main_v37 Cert.ReferenceIdeal.Read.val_main_v36 Cert.ReferenceIdeal.Read.val_main_v7
  rw [ref_rec, ref_bits]
  rfl

end Cert.Bridge

end
-- ==== Proof.lean ====
/-
  The kernel program (two launches of one nearest-point kernel, then a stretch of host arithmetic) against its jnp
  reference, over the extended reals.

  Both compute five scalars from two point clouds x, y (8 batches × 4096 points × 3 coordinates) and an array of
  likelihoods: the mean over all points of x of the least expanded squared distance |x_p|² + |y_q|² − 2·(x_p·y_q) to a point of
  y, plus the same mean for the points of y against x; a bit count of the likelihoods and two quotients of it; and their
  combination. The reference takes both nearest-point arrays from one 8 × 4096 × 4096 table (minimum along its last axis,
  minimum along its middle axis). The kernel program's first launch walks x in blocks of 128 points against all of y and
  stores each point's minimum; its second launch does the same with the clouds exchanged. The only law needed is the
  symmetry of the expanded squared distance — commutativity of + and · on the extended reals — so the precondition is
  never opened.

  The frames of the two kernel programs are the generated ones; the reference's frame is its generated run with the
  results dropped; the ideal pass rewrote nothing, so `preserves` is `True`.
-/
import proofs.«125754_j74560632259515_1_alg».proof.Defs
import proofs.«125754_j74560632259515_1_alg».proof.Proof.Gen.Kernel
import proofs.«125754_j74560632259515_1_alg».proof.Proof.Gen.Kernel.Skeleton
import proofs.«125754_j74560632259515_1_alg».proof.Proof.Gen.Kernel.Launch
import proofs.«125754_j74560632259515_1_alg».proof.Proof.Gen.Kernel.Points
import proofs.«125754_j74560632259515_1_alg».proof.Proof.Gen.Kernel.Frame
import proofs.«125754_j74560632259515_1_alg».proof.Proof.Gen.KernelIdeal
import proofs.«125754_j74560632259515_1_alg».proof.Proof.Gen.KernelIdeal.Skeleton
import proofs.«125754_j74560632259515_1_alg».proof.Proof.Gen.KernelIdeal.Launch
import proofs.«125754_j74560632259515_1_alg».proof.Proof.Gen.KernelIdeal.Points
import proofs.«125754_j74560632259515_1_alg».proof.Proof.Gen.KernelIdeal.Frame
import proofs.«125754_j74560632259515_1_alg».proof.Proof.Gen.ReferenceIdeal
import proofs.«125754_j74560632259515_1_alg».proof.Proof.Gen.Pre_finite_inputs
import proofs.«125754_j74560632259515_1_alg».proof.Proof.Gen.ReferenceIdeal.Run
import proofs.«125754_j74560632259515_1_alg».proof.Proof.Gen.ReferenceIdeal.Read
import proofs.«125754_j74560632259515_1_alg».proof.Proof.KernelRun
import proofs.«125754_j74560632259515_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- From memories agreeing on the three arguments both programs run, and each of the kernel program's five results is
    the reference's: the reference's run names each result as a term of its arguments, the arguments are rewritten to
    the kernel program's, and the term is the kernel program's result (`Cert.Bridge`). -/
theorem algebraic : Cert.algebraic_KernelIdeal_ReferenceIdeal := by
  intro m ρ m' ρ' _ hagree
  refine ⟨_, _, _, _, _, Cert.KernelIdeal.Named.run (F := Ideal) m ρ, ?_⟩
  refine (θ_run Cert.ReferenceIdeal.defs _ _).mono (fun _ h c => ?_) (Cert.ReferenceIdeal.Value.run (F := Ideal) m' ρ')
  obtain ⟨h37, h7, h35, h5, h6, ha0, ha1, ha2⟩ := h c
  obtain ⟨e0, e1, e2⟩ := hagree c
  refine ⟨h37.trans ?_, h7.trans ?_, h35.trans ?_, h5.trans ?_, h6.trans ?_, ha0, ha1, ha2⟩
  · rw [e0, e1, e2, Cert.ReferenceIdeal.Read.val_main_v37_eq]; exact Cert.Bridge.loss_eq m ρ c
  · rw [e2, Cert.ReferenceIdeal.Read.val_main_v7_eq]; exact Cert.Bridge.bpp_eq m ρ c
  · rw [e0, e1, Cert.ReferenceIdeal.Read.val_main_v35_eq]; exact Cert.Bridge.rec_eq m ρ c
  · rw [e2, Cert.ReferenceIdeal.Read.val_main_v5_eq]; exact Cert.Bridge.bit_eq m ρ c
  · rw [e2, Cert.ReferenceIdeal.Read.val_main_v6_eq]; exact Cert.Bridge.bpp_y_eq m ρ c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
